-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x9x32 : Shape := ⟨4, ![256, 512, 9, 32]⟩
abbrev S96x32 : Shape := ⟨2, ![96, 32]⟩
abbrev S_ : Shape := ⟨0, ![]⟩

class Facts : Prop where
  bcast_S_S256x512x9x32 : S_.BroadcastsInDim S256x512x9x32 (![] : Fin 0 → Fin S256x512x9x32.rank)
  reducesTo_S256x512x9x32_S_d0_1_2_3 : S256x512x9x32.ReducesTo [0, 1, 2, 3] S_
  h_S_ : 0 < S_.numel
  bcast_S_S96x32 : S_.BroadcastsInDim S96x32 (![] : Fin 0 → Fin S96x32.rank)
  reducesTo_S96x32_S_d0_1 : S96x32.ReducesTo [0, 1] S_

variable [Facts]

def fn {F : FTy → Type} [FloatOps F] (main_arg0 : FVec F S256x512x9x32 .f32) (main_arg1 : FVec F S96x32 .f32) : IVec S_ 1 :=
  let main_v0 : FVec F S256x512x9x32 .f32 := Host.absf main_arg0
  let main_cst : FVec F S_ .f32 := constant S_ .f32 0x7F800000#32
  let main_v1 : FVec F S256x512x9x32 .f32 := broadcastInDim S256x512x9x32 ![] bcast_S_S256x512x9x32 main_cst
  let main_v2 : IVec S256x512x9x32 1 := cmpf .olt main_v0 main_v1
  let main_c : IVec S_ 1 := constantI S_ 1 1#1
  let main_v3 : IVec S_ 1 := (fun x v => Host.reduce IntOp.andi x v reducesTo_S256x512x9x32_S_d0_1_2_3 h_S_) main_v2 main_c
  let main_v4 : FVec F S96x32 .f32 := Host.absf main_arg1
  let main_cst_0 : FVec F S_ .f32 := constant S_ .f32 0x7F800000#32
  let main_v5 : FVec F S96x32 .f32 := broadcastInDim S96x32 ![] bcast_S_S96x32 main_cst_0
  let main_v6 : IVec S96x32 1 := cmpf .olt main_v4 main_v5
  let main_c_1 : IVec S_ 1 := constantI S_ 1 1#1
  let main_v7 : IVec S_ 1 := (fun x v => Host.reduce IntOp.andi x v reducesTo_S96x32_S_d0_1 h_S_) main_v6 main_c_1
  let main_v8 : IVec S_ 1 := andi main_v3 main_v7
  main_v8
-- ==== Kernel.lean ====
abbrev S256x512x9x32 : Shape := ⟨4, ![256, 512, 9, 32]⟩
abbrev S96x32 : Shape := ⟨2, ![96, 32]⟩
abbrev S131072x9x32 : Shape := ⟨3, ![131072, 9, 32]⟩
abbrev S131072x256 : Shape := ⟨2, ![131072, 256]⟩
abbrev S1024x9x32 : Shape := ⟨3, ![1024, 9, 32]⟩
abbrev S1024x256 : Shape := ⟨2, ![1024, 256]⟩
abbrev S1024x1x32 : Shape := ⟨3, ![1024, 1, 32]⟩
abbrev S1024x32 : Shape := ⟨2, ![1024, 32]⟩
abbrev S1024x96 : Shape := ⟨2, ![1024, 96]⟩
abbrev S256x512x256 : Shape := ⟨3, ![256, 512, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x512x9x32, .f32⟩
  | .hbm, ⟨1, _⟩ => ⟨S96x32, .f32⟩
  | .hbm, ⟨2, _⟩ => ⟨S131072x9x32, .f32⟩
  | .hbm, ⟨3, _⟩ => ⟨S131072x256, .f32⟩
  | .hbm, ⟨4, _⟩ => ⟨S256x512x256, .f32⟩
  | .local _ .vmem, ⟨0, _⟩ => ⟨S1024x9x32, .f32⟩
  | .local _ .vmem, ⟨1, _⟩ => ⟨S1024x9x32, .f32⟩
  | .local _ .vmem, ⟨2, _⟩ => ⟨S96x32, .f32⟩
  | .local _ .vmem, ⟨3, _⟩ => ⟨S1024x256, .f32⟩
  | .local _ .vmem, ⟨4, _⟩ => ⟨S1024x256, .f32⟩
  | _, _ => ⟨S256x512x9x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x9x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256x512x9x32_S131072x9x32 : S256x512x9x32.ShapeCasts S131072x9x32
  inb_S1024x9x32_S1024x9x32_0_0_0 : ∀ a, (![0, 0, 0] : Fin 3 → Nat) a + S1024x9x32.size a ≤ S1024x9x32.size a
  h_S1024x9x32 : 0 < S1024x9x32.numel
  shapeCasts_S1024x9x32_S1024x9x32 : S1024x9x32.ShapeCasts S1024x9x32
  bitsLt_bf16_f32 : FTy.bits .bf16 < FTy.bits .f32
  inb_S96x32_S96x32_0_0 : ∀ a, (![0, 0] : Fin 2 → Nat) a + S96x32.size a ≤ S96x32.size a
  h_S96x32 : 0 < S96x32.numel
  slices_S1024x9x32_o0_0_0_S1024x1x32 : S1024x9x32.Slices ![0, 0, 0] S1024x1x32
  shapeCasts_S1024x1x32_S1024x32 : S1024x1x32.ShapeCasts S1024x32
  slices_S1024x9x32_o0_1_0_S1024x1x32 : S1024x9x32.Slices ![0, 1, 0] S1024x1x32
  slices_S1024x9x32_o0_2_0_S1024x1x32 : S1024x9x32.Slices ![0, 2, 0] S1024x1x32
  concatenates_S1024x32_S1024x32_S1024x32_S1024x96_d1 : Shape.Concatenates [S1024x32, S1024x32, S1024x32] S1024x96 1
  slices_S1024x9x32_o0_3_0_S1024x1x32 : S1024x9x32.Slices ![0, 3, 0] S1024x1x32
  slices_S1024x9x32_o0_4_0_S1024x1x32 : S1024x9x32.Slices ![0, 4, 0] S1024x1x32
  slices_S1024x9x32_o0_5_0_S1024x1x32 : S1024x9x32.Slices ![0, 5, 0] S1024x1x32
  slices_S1024x9x32_o0_6_0_S1024x1x32 : S1024x9x32.Slices ![0, 6, 0] S1024x1x32
  slices_S1024x9x32_o0_7_0_S1024x1x32 : S1024x9x32.Slices ![0, 7, 0] S1024x1x32
  slices_S1024x9x32_o0_8_0_S1024x1x32 : S1024x9x32.Slices ![0, 8, 0] S1024x1x32
  concatenates_S1024x32_S1024x32_S1024x32_S1024x32_S1024x32_S1024x32_S1024x32_S1024x32_S1024x256_d1 : Shape.Concatenates [S1024x32, S1024x32, S1024x32, S1024x32, S1024x32, S1024x32, S1024x32, S1024x32] S1024x256 1
  inb_S1024x256_S1024x256_0_0 : ∀ a, (![0, 0] : Fin 2 → Nat) a + S1024x256.size a ≤ S1024x256.size a
  h_S1024x256 : 0 < S1024x256.numel
  shapeCasts_S131072x256_S256x512x256 : S131072x256.ShapeCasts S256x512x256
  dot_S1024x96_S96x32_S1024x32_1_0_0_1_n_n_wf : DotDims.WF S1024x96 S96x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x9x32.size a ≤ S131072x9x32.size a
  hwx0_0 : ∀ i : grid0.Coords, EltTy.bits .f32 = 32 ∨ (Rect.block (s := S131072x9x32) S1024x9x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x32.size a ≤ S96x32.size a
  hwx0_1 : ∀ i : grid0.Coords, EltTy.bits .f32 = 32 ∨ (Rect.block (s := S96x32) S96x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S131072x256.size a
  hwx0_2 : ∀ i : grid0.Coords, EltTy.bits .f32 = 32 ∨ (Rect.block (s := S131072x256) S1024x256.size (cc0_transform_2 i) (hinb0_2 i)).WholeWords (EltTy.packing .f32)

variable [Facts₀]

def dot_S1024x96_S96x32_S1024x32_1_0_0_1_n_n : DotDims S1024x96 S96x32 S1024x32 where
  lhsContracting := [1]
  rhsContracting := [0]
  lhsNonContracting := [0]
  rhsNonContracting := [1]
  lhsBatch := []
  rhsBatch := []
  wf := dot_S1024x96_S96x32_S1024x32_1_0_0_1_n_n_wf

abbrev win0_0 : Pipeline.Window sig grid0 :=
  Pipeline.Window.ofSpec (Memref.whole main_v0) S1024x9x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x512x9x32 : Shape := ⟨4, ![256, 512, 9, 32]⟩
abbrev S96x32 : Shape := ⟨2, ![96, 32]⟩
abbrev S8x3 : Shape := ⟨2, ![8, 3]⟩
abbrev S_ : Shape := ⟨0, ![]⟩
abbrev S8x3x1 : Shape := ⟨3, ![8, 3, 1]⟩
abbrev S256x512x8x3x32 : Shape := ⟨5, ![256, 512, 8, 3, 32]⟩
abbrev S256x512x8x96 : Shape := ⟨4, ![256, 512, 8, 96]⟩
abbrev S256x512x8x32 : Shape := ⟨4, ![256, 512, 8, 32]⟩
abbrev S256x512x256 : Shape := ⟨3, ![256, 512, 256]⟩

abbrev nBuf : Space → Nat
  | .hbm => 15
  | .vmem => 0
  | .smem => 0
  | _ => 0

abbrev bufTy : (tb : Table) → Fin (tcTables nBuf tb) → BufTy
  | .hbm, ⟨0, _⟩ => ⟨S256x512x9x32, .f32⟩
  | .hbm, ⟨1, _⟩ => ⟨S96x32, .f32⟩
  | .hbm, ⟨2, _⟩ => ⟨S8x3, .i32⟩
  | .hbm, ⟨3, _⟩ => ⟨S_, .i32⟩
  | .hbm, ⟨4, _⟩ => ⟨S8x3, .i32⟩
  | .hbm, ⟨5, _⟩ => ⟨S8x3, .i1⟩
  | .hbm, ⟨6, _⟩ => ⟨S_, .i32⟩
  | .hbm, ⟨7, _⟩ => ⟨S8x3, .i32⟩
  | .hbm, ⟨8, _⟩ => ⟨S8x3, .i32⟩
  | .hbm, ⟨9, _⟩ => ⟨S8x3, .i32⟩
  | .hbm, ⟨10, _⟩ => ⟨S8x3x1, .i32⟩
  | .hbm, ⟨11, _⟩ => ⟨S256x512x8x3x32, .f32⟩
  | .hbm, ⟨12, _⟩ => ⟨S256x512x8x96, .f32⟩
  | .hbm, ⟨13, _⟩ => ⟨S256x512x8x32, .f32⟩
  | .hbm, ⟨14, _⟩ => ⟨S256x512x256, .f32⟩
  | _, _ => ⟨S256x512x9x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S8x3 : S_.BroadcastsInDim S8x3 (![] : Fin 0 → Fin S8x3.rank)
  bcast_S8x3_S8x3x1_0_1 : S8x3.BroadcastsInDim S8x3x1 (![0, 1] : Fin 2 → Fin S8x3x1.rank)
  shapeCasts_S256x512x8x3x32_S256x512x8x96 : S256x512x8x3x32.ShapeCasts S256x512x8x96
  shapeCasts_S256x512x8x32_S256x512x256 : S256x512x8x32.ShapeCasts S256x512x256
  gather_S256x512x9x32_S8x3x1_S256x512x8x3x32_014_2_n_n_2_2_256512132_wf : GatherDims.WF S256x512x9x32 S8x3x1 S256x512x8x3x32 [0, 1, 4] [2] [] [2] [] 2 ![256, 512, 1, 32]
  dot_S256x512x8x96_S96x32_S256x512x8x32_3_0_012_1_n_n_wf : DotDims.WF S256x512x8x96 S96x32 S256x512x8x32 [3] [0] [0, 1, 2] [1] [] []

variable [Facts₀]

def gather_S256x512x9x32_S8x3x1_S256x512x8x3x32_014_2_n_n_2_2_256512132 : GatherDims S256x512x9x32 S8x3x1 S256x512x8x3x32 where
  offsetDims := [0, 1, 4]
  collapsedSliceDims := [2]
  operandBatchingDims := []
  startIndicesBatchingDims := []
  startIndexMap := [2]
  indexVectorDim := 2
  sliceSizes := ![256, 512, 1, 32]
  wf := gather_S256x512x9x32_S8x3x1_S256x512x8x3x32_014_2_n_n_2_2_256512132_wf
def dot_S256x512x8x96_S96x32_S256x512x8x32_3_0_012_1_n_n : DotDims S256x512x8x96 S96x32 S256x512x8x32 where
  lhsContracting := [3]
  rhsContracting := [0]
  lhsNonContracting := [0, 1, 2]
  rhsNonContracting := [1]
  lhsBatch := []
  rhsBatch := []
  wf := dot_S256x512x8x96_S96x32_S256x512x8x32_3_0_012_1_n_n_wf

class Facts : Prop extends Facts₀ where

variable [Facts]
-- ==== Proof.Spec.lean ====
/-
  The function both programs compute, stated once over literal shapes and with no program in sight.

  A sample is a 3 x 3 board of cells, each cell an embedding of 32 numbers; a batch of 256 x 512 boards is an
  array [256, 512, 9, 32]. The board has eight lines (three rows, three columns, two diagonals), each a triple
  of cells. A line's feature vector is the concatenation of its three cells' embeddings (96 numbers) times a
  weight matrix [96, 32]; the result lays the eight lines' 32 features side by side, 256 numbers per board:

      out[b, n, 32 l + f] = sum over k < 96 of  x[b, n, cell l (k / 32), k % 32] * w[k, f].

  `lineFeat` is that array over the extended reals; `flatFeat` is the same over boards numbered by one index
  (the array [131072, 9, 32] a row-major reshape gives), and `lineFeat_flat` says how the two are related.
-/
import Idealize.ShloMosaic.PureOps.Ideal
import Idealize.ShloMosaic.Lib.ValueIdx

noncomputable section

open scoped BigOperators

namespace Cert.Lines

open Idealize.ShloMosaic Idealize.ShloMosaic.ValueIdx

/-- Cell `j` of line `l`: rows, columns, then the two diagonals of the 3 x 3 board, cells numbered row by row. -/
def cell : Fin 8 → Fin 3 → Fin 9 :=
  ![![0, 1, 2], ![3, 4, 5], ![6, 7, 8], ![0, 3, 6], ![1, 4, 7], ![2, 5, 8], ![0, 4, 8], ![2, 4, 6]]

/-- The line an output column belongs to: columns come in eight runs of 32. -/
def lineOf (q : Fin 256) : Fin 8 := ⟨q.val / 32, by omega⟩
/-- The feature an output column holds within its line. -/
def featOf (q : Fin 256) : Fin 32 := ⟨q.val % 32, by omega⟩
/-- Which of a line's three cells position `k` of the concatenated 96 falls in. -/
def posOf (k : Fin 96) : Fin 3 := ⟨k.val / 32, by omega⟩
/-- The embedding coordinate position `k` of the concatenated 96 holds. -/
def embOf (k : Fin 96) : Fin 32 := ⟨k.val % 32, by omega⟩

/-- The eight lines' features of every board, boards indexed by batch and position. -/
def lineFeat (x : (⟨4, ![256, 512, 9, 32]⟩ : Shape).Idx → EReal) (w : (⟨2, ![96, 32]⟩ : Shape).Idx → EReal) :
    (⟨3, ![256, 512, 256]⟩ : Shape).Idx → EReal :=
  fun i => ∑ k : Fin 96, x (ix4 (i 0) (i 1) (cell (lineOf (i 2)) (posOf k)) (embOf k)) * w (ix2 k (featOf (i 2)))

/-- The same with the boards numbered by one index. -/
def flatFeat (X : (⟨3, ![131072, 9, 32]⟩ : Shape).Idx → EReal) (w : (⟨2, ![96, 32]⟩ : Shape).Idx → EReal) :
    (⟨2, ![131072, 256]⟩ : Shape).Idx → EReal :=
  fun i => ∑ k : Fin 96, X (ix3 (i 0) (cell (lineOf (i 1)) (posOf k)) (embOf k)) * w (ix2 k (featOf (i 1)))

/-- Board `(b, n)` is board number `512 b + n`: if the flat array holds the batch's boards in that order, the flat
    features at row `512 b + n` are the features of board `(b, n)`. -/
theorem lineFeat_flat (x : (⟨4, ![256, 512, 9, 32]⟩ : Shape).Idx → EReal) (X : (⟨3, ![131072, 9, 32]⟩ : Shape).Idx → EReal)
    (w : (⟨2, ![96, 32]⟩ : Shape).Idx → EReal)
    (hX : ∀ (b : Fin 256) (n : Fin 512) (r : Fin 131072) (c : Fin 9) (e : Fin 32), r.val = 512 * b.val + n.val →
      X (ix3 r c e) = x (ix4 b n c e))
    (b : Fin 256) (n : Fin 512) (r : Fin 131072) (hr : r.val = 512 * b.val + n.val) (q : Fin 256) :
    flatFeat X w (ix2 r q) = lineFeat x w (ix3 b n q) := by
  unfold flatFeat lineFeat
  refine Finset.sum_congr rfl fun k _ => ?_
  exact congrArg (· * _) (hX b n r _ _ hr)

end Cert.Lines

end
-- ==== Proof.RefTerm.lean ====
/-
  The reference's result as ONE function of its two arguments: the composition of its host operations.

  The table of lines is a constant [8, 3] of cell numbers; jax's indexing first wraps negative entries
  (`select (c < 0) (c + 9) c`), adds a trailing unit axis, and gathers along the board's cell axis; the gathered
  [256, 512, 8, 3, 32] is reshaped to [256, 512, 8, 96] (a line's three embeddings side by side), multiplied by the
  weights over the 96, and the [256, 512, 8, 32] result reshaped to [256, 512, 256].
-/
import proofs.«101083_j11570641895534_1_alg».proof.Proof.Gen.ReferenceIdeal

noncomputable section

namespace Cert.ReferenceIdeal.RefRun

open Cert.ReferenceIdeal Cert.ReferenceIdeal.Gen Idealize.ShloMosaic

variable {F : FTy → Type} [FloatOps F]

/-- The lines' cells as the program's constant holds them. -/
def lineTab : (⟨S8x3, .i32⟩ : BufTy).Contents (Elt F) := fun i => lit0 (S8x3.rowMajor i)

/-- The start indices the gather reads: the table with negative entries wrapped by 9, a unit axis added. -/
def lineIdx : (⟨S8x3x1, .i32⟩ : BufTy).Contents (Elt F) :=
  (broadcastInDim S8x3x1 ![0, 1] bcast_S8x3_S8x3x1_0_1 : (⟨S8x3, .i32⟩ : BufTy).Contents (Elt F) → (⟨S8x3x1, .i32⟩ : BufTy).Contents (Elt F))
    ((select : (⟨S8x3, .i1⟩ : BufTy).Contents (Elt F) → (⟨S8x3, .i32⟩ : BufTy).Contents (Elt F) → (⟨S8x3, .i32⟩ : BufTy).Contents (Elt F) → (⟨S8x3, .i32⟩ : BufTy).Contents (Elt F))
      ((cmpi .slt : (⟨S8x3, .i32⟩ : BufTy).Contents (Elt F) → (⟨S8x3, .i32⟩ : BufTy).Contents (Elt F) → (⟨S8x3, .i1⟩ : BufTy).Contents (Elt F))
        (lineTab (F := F))
        ((broadcastInDim S8x3 ![] bcast_S_S8x3 : (⟨S_, .i32⟩ : BufTy).Contents (Elt F) → (⟨S8x3, .i32⟩ : BufTy).Contents (Elt F)) (constantI S_ 32 0#32)))
      ((addi : (⟨S8x3, .i32⟩ : BufTy).Contents (Elt F) → (⟨S8x3, .i32⟩ : BufTy).Contents (Elt F) → (⟨S8x3, .i32⟩ : BufTy).Contents (Elt F))
        (lineTab (F := F))
        ((broadcastInDim S8x3 ![] bcast_S_S8x3 : (⟨S_, .i32⟩ : BufTy).Contents (Elt F) → (⟨S8x3, .i32⟩ : BufTy).Contents (Elt F)) (constantI S_ 32 9#32)))
      (lineTab (F := F)))

/-- Every board's lines, each line's three cell embeddings kept apart: [256, 512, 8, 3, 32]. -/
def gathered (x : (⟨S256x512x9x32, .f32⟩ : BufTy).Contents (Elt F)) : (⟨S256x512x8x3x32, .f32⟩ : BufTy).Contents (Elt F) :=
  Host.gather gather_S256x512x9x32_S8x3x1_S256x512x8x3x32_014_2_n_n_2_2_256512132 x (lineIdx (F := F))

/-- The reference's result. -/
def refTerm (x : (⟨S256x512x9x32, .f32⟩ : BufTy).Contents (Elt F)) (w : (⟨S96x32, .f32⟩ : BufTy).Contents (Elt F)) :
    (⟨S256x512x256, .f32⟩ : BufTy).Contents (Elt F) :=
  shapeCast S256x512x256
    (Host.dotGeneral dot_S256x512x8x96_S96x32_S256x512x8x32_3_0_012_1_n_n none
      (shapeCast S256x512x8x96 (gathered x) shapeCasts_S256x512x8x3x32_S256x512x8x96) w)
    shapeCasts_S256x512x8x32_S256x512x256

end Cert.ReferenceIdeal.RefRun

end
-- ==== Proof.RefRun.lean ====
/-
  The reference program's run, read back. Its @main is a straight line of thirteen host operations with no kernel
  launch, so every weakly fair execution terminates, and it ends with the result buffer holding the operations'
  composed term of the two arguments (`refTerm`) and the arguments as they were.
-/
import proofs.«101083_j11570641895534_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's thirteen operations, in order. -/
abbrev ops : List (HloOp τ sig (Elt F)) :=
  [ nullary main_c (fun i => lit0 (S8x3.rowMajor i)),
    nullary main_c_0 (constantI S_ 32 0#32),
    unary main_c_0 main_v0 (broadcastInDim S8x3 ![] bcast_S_S8x3 : (⟨S_, .i32⟩ : BufTy).Contents (Elt F) → (⟨S8x3, .i32⟩ : BufTy).Contents (Elt F)),
    binary main_c main_v0 main_v1 (cmpi .slt : (⟨S8x3, .i32⟩ : BufTy).Contents (Elt F) → (⟨S8x3, .i32⟩ : BufTy).Contents (Elt F) → (⟨S8x3, .i1⟩ : BufTy).Contents (Elt F)),
    nullary main_c_1 (constantI S_ 32 9#32),
    unary main_c_1 main_v2 (broadcastInDim S8x3 ![] bcast_S_S8x3 : (⟨S_, .i32⟩ : BufTy).Contents (Elt F) → (⟨S8x3, .i32⟩ : BufTy).Contents (Elt F)),
    binary main_c main_v2 main_v3 (addi : (⟨S8x3, .i32⟩ : BufTy).Contents (Elt F) → (⟨S8x3, .i32⟩ : BufTy).Contents (Elt F) → (⟨S8x3, .i32⟩ : BufTy).Contents (Elt F)),
    ternary main_v1 main_v3 main_c main_v4 (select : (⟨S8x3, .i1⟩ : BufTy).Contents (Elt F) → (⟨S8x3, .i32⟩ : BufTy).Contents (Elt F) → (⟨S8x3, .i32⟩ : BufTy).Contents (Elt F) → (⟨S8x3, .i32⟩ : BufTy).Contents (Elt F)),
    unary main_v4 main_v5 (broadcastInDim S8x3x1 ![0, 1] bcast_S8x3_S8x3x1_0_1 : (⟨S8x3, .i32⟩ : BufTy).Contents (Elt F) → (⟨S8x3x1, .i32⟩ : BufTy).Contents (Elt F)),
    binary main_arg0 main_v5 main_v6 ((fun x i => Host.gather gather_S256x512x9x32_S8x3x1_S256x512x8x3x32_014_2_n_n_2_2_256512132 x i) : (⟨S256x512x9x32, .f32⟩ : BufTy).Contents (Elt F) → (⟨S8x3x1, .i32⟩ : BufTy).Contents (Elt F) → (⟨S256x512x8x3x32, .f32⟩ : BufTy).Contents (Elt F)),
    reshape main_v6 main_v7 rfl shapeCasts_S256x512x8x3x32_S256x512x8x96,
    binary main_v7 main_arg1 main_v8 ((fun l r => Host.dotGeneral dot_S256x512x8x96_S96x32_S256x512x8x32_3_0_012_1_n_n none l r) : (⟨S256x512x8x96, .f32⟩ : BufTy).Contents (Elt F) → (⟨S96x32, .f32⟩ : BufTy).Contents (Elt F) → (⟨S256x512x8x32, .f32⟩ : BufTy).Contents (Elt F)),
    reshape main_v8 main_v9 rfl shapeCasts_S256x512x8x32_S256x512x256 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., binary_bufs_sub ..,
    reshape_bufs_sub ..⟩

/-- On the one device, for any float values, from any memory with zero counters: every weakly fair execution of
    @main terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v9).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.RefValue.lean ====
/-
  The reference's term, read at an index over the extended reals, is the line features of the specification.

  The road, outermost operation first: the last reshape reads column `q` of a board's 256 at line `q / 32`, feature
  `q % 32`; the product over the 96 is a sum over its one contracted axis; the first reshape reads position `k` of a
  line's 96 at cell `k / 32`, coordinate `k % 32`; the gather reads cell `j` of line `l` at the board's cell the table
  names, every table word being one of 0 … 8, so neither the wrap of negative entries nor the clamp into the
  board's nine cells changes it.
-/
import proofs.«101083_j11570641895534_1_alg».proof.Proof.RefTerm
import proofs.«101083_j11570641895534_1_alg».proof.Proof.Spec
import Idealize.ShloMosaic.Lib.Pipeline.Value
import Idealize.ShloMosaic.PureOps.Ideal.Laws
import Idealize.ShloMosaic.Shape
import Idealize.ShloMosaic.PureOps.Dims
import Idealize.ShloMosaic.PureOps.ShapeOps
import Idealize.ShloMosaic.PureOps.Vector
import Idealize.ShloMosaic.Lib.ValueIdx
import Mathlib.Tactic.FinCases

noncomputable section

open scoped BigOperators

namespace Cert.ReferenceIdeal.RefValue

open Cert.ReferenceIdeal Cert.ReferenceIdeal.Gen Idealize.ShloMosaic Idealize.ShloMosaic.ValueIdx

/-! ## The table of lines -/

/-- The table's entry for cell `j` of line `l` sits at row-major position `3 l + j`. -/
theorem lineTab_at (l : Fin 8) (j : Fin 3) :
    RefRun.lineTab (F := Ideal) (ix2 l j) = lit0 ⟨3 * l.val + j.val, by omega⟩ := by
  unfold RefRun.lineTab
  refine congrArg lit0 (Fin.ext ?_)
  rw [Shape.rowMajor_val_two]
  show l.val * 3 + j.val = 3 * l.val + j.val
  omega

/-- No table word is negative. -/
theorem lit0_not_neg (l : Fin 8) (j : Fin 3) :
    IntOp.cmpi .slt (lit0 ⟨3 * l.val + j.val, by omega⟩) 0#32 = 0#1 := by
  fin_cases l <;> fin_cases j <;> decide

/-- Each table word, read as a signed integer, is the cell number. -/
theorem lit0_cell (l : Fin 8) (j : Fin 3) :
    (lit0 ⟨3 * l.val + j.val, by omega⟩).toInt.toNat = (Cert.Lines.cell l j).val := by
  fin_cases l <;> fin_cases j <;> decide

/-- The start index the gather reads for cell `j` of line `l` is the table's word: the comparison with 0 is false, so
    the selection keeps the entry and not the entry plus 9; the added unit axis reads the same entry. -/
theorem lineIdx_at (l : Fin 8) (j : Fin 3) :
    RefRun.lineIdx (F := Ideal) (ix3 l j (0 : Fin 1)) = lit0 ⟨3 * l.val + j.val, by omega⟩ := by
  unfold RefRun.lineIdx
  rw [broadcastInDim_apply _ _ _ _ (ix2 l j) (by
    intro a
    match a with
    | ⟨0, _⟩ => rfl
    | ⟨1, _⟩ => rfl)]
  rw [select_apply]
  have hc : (cmpi .slt (RefRun.lineTab (F := Ideal))
      ((broadcastInDim S8x3 ![] bcast_S_S8x3 : (⟨S_, .i32⟩ : BufTy).Contents (Elt Ideal) → (⟨S8x3, .i32⟩ : BufTy).Contents (Elt Ideal)) (constantI S_ 32 0#32)))
      (ix2 l j) = 0#1 := by
    show IntOp.cmpi .slt (RefRun.lineTab (F := Ideal) (ix2 l j)) 0#32 = 0#1
    rw [lineTab_at]
    exact lit0_not_neg l j
  rw [hc, select_zero, lineTab_at]

/-- That start index, read as a signed integer, is the number of cell `j` of line `l`. -/
theorem lineIdx_cell (l : Fin 8) (j : Fin 3) :
    (RefRun.lineIdx (F := Ideal) (ix3 l j (0 : Fin 1))).toInt.toNat = (Cert.Lines.cell l j).val := by
  rw [lineIdx_at, lit0_cell]

/-! ## The gather -/

/-- The start-indices index a result index reads: its line and cell coordinates, the unit axis at 0. -/
theorem gather_siIdx (b : Fin 256) (n : Fin 512) (l : Fin 8) (j : Fin 3) (e : Fin 32) :
    gather_S256x512x9x32_S8x3x1_S256x512x8x3x32_014_2_n_n_2_2_256512132.siIdx (ix5 b n l j e) ⟨List.idxOf (2 : Fin S256x512x9x32.rank) gather_S256x512x9x32_S8x3x1_S256x512x8x3x32_014_2_n_n_2_2_256512132.startIndexMap,
      List.idxOf_lt_length_iff.2 (List.mem_singleton.mpr rfl)⟩ = ix3 l j (0 : Fin 1) := by
  funext a; refine Fin.ext ?_
  match a with
  | ⟨0, _⟩ => rfl
  | ⟨1, _⟩ => rfl
  | ⟨2, _⟩ => rfl

/-- The board's batch axis is an offset axis: the operand's coordinate is the result's. -/
theorem gather_axis0 (idx : IVec S8x3x1 32) (y : S256x512x8x3x32.Idx) :
    gather_S256x512x9x32_S8x3x1_S256x512x8x3x32_014_2_n_n_2_2_256512132.start y idx 0 + gather_S256x512x9x32_S8x3x1_S256x512x8x3x32_014_2_n_n_2_2_256512132.batchCoord y 0 + gather_S256x512x9x32_S8x3x1_S256x512x8x3x32_014_2_n_n_2_2_256512132.offCoord y 0 = (y 0).val := by
  rw [GatherDims.batchCoord_eq_zero _ _ _ List.not_mem_nil]
  unfold GatherDims.start GatherDims.offCoord
  rw [dif_neg (show ¬(0 : Fin S256x512x9x32.rank) ∈ gather_S256x512x9x32_S8x3x1_S256x512x8x3x32_014_2_n_n_2_2_256512132.startIndexMap by decide),
    dif_pos (show (0 : Fin S256x512x9x32.rank) ∈ gather_S256x512x9x32_S8x3x1_S256x512x8x3x32_014_2_n_n_2_2_256512132.sKept by decide)]
  simp only [Nat.add_zero, Nat.zero_add]
  rfl

/-- The board's position axis is an offset axis: the operand's coordinate is the result's. -/
theorem gather_axis1 (idx : IVec S8x3x1 32) (y : S256x512x8x3x32.Idx) :
    gather_S256x512x9x32_S8x3x1_S256x512x8x3x32_014_2_n_n_2_2_256512132.start y idx 1 + gather_S256x512x9x32_S8x3x1_S256x512x8x3x32_014_2_n_n_2_2_256512132.batchCoord y 1 + gather_S256x512x9x32_S8x3x1_S256x512x8x3x32_014_2_n_n_2_2_256512132.offCoord y 1 = (y 1).val := by
  rw [GatherDims.batchCoord_eq_zero _ _ _ List.not_mem_nil]
  unfold GatherDims.start GatherDims.offCoord
  rw [dif_neg (show ¬(1 : Fin S256x512x9x32.rank) ∈ gather_S256x512x9x32_S8x3x1_S256x512x8x3x32_014_2_n_n_2_2_256512132.startIndexMap by decide),
    dif_pos (show (1 : Fin S256x512x9x32.rank) ∈ gather_S256x512x9x32_S8x3x1_S256x512x8x3x32_014_2_n_n_2_2_256512132.sKept by decide)]
  simp only [Nat.add_zero, Nat.zero_add]
  rfl

/-- The embedding axis is an offset axis: the operand's coordinate is the result's last. -/
theorem gather_axis3 (idx : IVec S8x3x1 32) (y : S256x512x8x3x32.Idx) :
    gather_S256x512x9x32_S8x3x1_S256x512x8x3x32_014_2_n_n_2_2_256512132.start y idx 3 + gather_S256x512x9x32_S8x3x1_S256x512x8x3x32_014_2_n_n_2_2_256512132.batchCoord y 3 + gather_S256x512x9x32_S8x3x1_S256x512x8x3x32_014_2_n_n_2_2_256512132.offCoord y 3 = (y 4).val := by
  rw [GatherDims.batchCoord_eq_zero _ _ _ List.not_mem_nil]
  unfold GatherDims.start GatherDims.offCoord
  rw [dif_neg (show ¬(3 : Fin S256x512x9x32.rank) ∈ gather_S256x512x9x32_S8x3x1_S256x512x8x3x32_014_2_n_n_2_2_256512132.startIndexMap by decide),
    dif_pos (show (3 : Fin S256x512x9x32.rank) ∈ gather_S256x512x9x32_S8x3x1_S256x512x8x3x32_014_2_n_n_2_2_256512132.sKept by decide)]
  simp only [Nat.add_zero, Nat.zero_add]
  rfl

/-- The cell axis is collapsed and is the one the start index names: the operand's coordinate is the table's cell
    number, which the clamp into 0 … 8 leaves as it is. -/
theorem gather_axis2 (b : Fin 256) (n : Fin 512) (l : Fin 8) (j : Fin 3) (e : Fin 32) :
    gather_S256x512x9x32_S8x3x1_S256x512x8x3x32_014_2_n_n_2_2_256512132.start (ix5 b n l j e) (RefRun.lineIdx (F := Ideal)) 2 + gather_S256x512x9x32_S8x3x1_S256x512x8x3x32_014_2_n_n_2_2_256512132.batchCoord (ix5 b n l j e) 2 + gather_S256x512x9x32_S8x3x1_S256x512x8x3x32_014_2_n_n_2_2_256512132.offCoord (ix5 b n l j e) 2
      = (Cert.Lines.cell l j).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (2 : Fin S256x512x9x32.rank) ∈ gather_S256x512x9x32_S8x3x1_S256x512x8x3x32_014_2_n_n_2_2_256512132.startIndexMap from List.mem_singleton.mpr rfl)]
  rw [gather_siIdx, lineIdx_cell]
  have := (Cert.Lines.cell l j).isLt
  show min (Cert.Lines.cell l j).val (9 - 1) = _
  omega

/-- The gather read at an index: cell `j` of line `l` of board `(b, n)`. -/
theorem gathered_at (x : FVec Ideal S256x512x9x32 .f32) (b : Fin 256) (n : Fin 512) (l : Fin 8) (j : Fin 3) (e : Fin 32) :
    RefRun.gathered (F := Ideal) x (ix5 b n l j e) = x (ix4 b n (Cert.Lines.cell l j) e) := by
  unfold RefRun.gathered Host.gather
  refine congrArg x (funext fun a => Fin.ext ?_)
  show gather_S256x512x9x32_S8x3x1_S256x512x8x3x32_014_2_n_n_2_2_256512132.start (ix5 b n l j e) (RefRun.lineIdx (F := Ideal)) a + gather_S256x512x9x32_S8x3x1_S256x512x8x3x32_014_2_n_n_2_2_256512132.batchCoord (ix5 b n l j e) a + gather_S256x512x9x32_S8x3x1_S256x512x8x3x32_014_2_n_n_2_2_256512132.offCoord (ix5 b n l j e) a = _
  match a with
  | ⟨0, _⟩ => exact gather_axis0 _ _
  | ⟨1, _⟩ => exact gather_axis1 _ _
  | ⟨2, _⟩ => exact gather_axis2 b n l j e
  | ⟨3, _⟩ => exact gather_axis3 _ _

/-! ## The two reshapes -/

/-- The first reshape: position `k` of a line's 96 is coordinate `k % 32` of its cell `k / 32`. -/
theorem reshape96_at (g : FVec Ideal S256x512x8x3x32 .f32) (b : Fin 256) (n : Fin 512) (l : Fin 8) (k : Fin 96) :
    shapeCast S256x512x8x96 g shapeCasts_S256x512x8x3x32_S256x512x8x96 (ix4 b n l k)
      = g (ix5 b n l (Cert.Lines.posOf k) (Cert.Lines.embOf k)) := by
  refine shapeCast_apply g _ _ _ ?_
  rw [Shape.rowMajor_val_five, Shape.rowMajor_val_four]
  show (((b.val * 512 + n.val) * 8 + l.val) * 3 + k.val / 32) * 32 + k.val % 32
    = ((b.val * 512 + n.val) * 8 + l.val) * 96 + k.val
  omega

/-- The last reshape: column `q` of a board's 256 is feature `q % 32` of line `q / 32`. -/
theorem reshape256_at (d : FVec Ideal S256x512x8x32 .f32) (b : Fin 256) (n : Fin 512) (q : Fin 256) :
    shapeCast S256x512x256 d shapeCasts_S256x512x8x32_S256x512x256 (ix3 b n q)
      = d (ix4 b n (Cert.Lines.lineOf q) (Cert.Lines.featOf q)) := by
  refine shapeCast_apply d _ _ _ ?_
  rw [Shape.rowMajor_val_four, Shape.rowMajor_val_three]
  show ((b.val * 512 + n.val) * 8 + q.val / 32) * 32 + q.val % 32 = (b.val * 512 + n.val) * 256 + q.val
  omega

/-! ## The product over the 96 -/

/-- The left operand's three free axes read the result's first three coordinates; its last axis is the contracted one. -/
theorem dot_lhs_0 (i : S256x512x8x32.Idx) (q : dot_S256x512x8x96_S96x32_S256x512x8x32_3_0_012_1_n_n.contr.Idx) : (dot_S256x512x8x96_S96x32_S256x512x8x32_3_0_012_1_n_n.lhsIdx i q 0).val = (i 0).val := by
  unfold DotDims.lhsIdx
  rw [dif_neg (show ¬(0 : Fin S256x512x8x96.rank) ∈ dot_S256x512x8x96_S96x32_S256x512x8x32_3_0_012_1_n_n.lhsBatch by decide),
    dif_pos (show (0 : Fin S256x512x8x96.rank) ∈ dot_S256x512x8x96_S96x32_S256x512x8x32_3_0_012_1_n_n.lhsNonContracting by decide)]
  rfl

theorem dot_lhs_1 (i : S256x512x8x32.Idx) (q : dot_S256x512x8x96_S96x32_S256x512x8x32_3_0_012_1_n_n.contr.Idx) : (dot_S256x512x8x96_S96x32_S256x512x8x32_3_0_012_1_n_n.lhsIdx i q 1).val = (i 1).val := by
  unfold DotDims.lhsIdx
  rw [dif_neg (show ¬(1 : Fin S256x512x8x96.rank) ∈ dot_S256x512x8x96_S96x32_S256x512x8x32_3_0_012_1_n_n.lhsBatch by decide),
    dif_pos (show (1 : Fin S256x512x8x96.rank) ∈ dot_S256x512x8x96_S96x32_S256x512x8x32_3_0_012_1_n_n.lhsNonContracting by decide)]
  rfl

theorem dot_lhs_2 (i : S256x512x8x32.Idx) (q : dot_S256x512x8x96_S96x32_S256x512x8x32_3_0_012_1_n_n.contr.Idx) : (dot_S256x512x8x96_S96x32_S256x512x8x32_3_0_012_1_n_n.lhsIdx i q 2).val = (i 2).val := by
  unfold DotDims.lhsIdx
  rw [dif_neg (show ¬(2 : Fin S256x512x8x96.rank) ∈ dot_S256x512x8x96_S96x32_S256x512x8x32_3_0_012_1_n_n.lhsBatch by decide),
    dif_pos (show (2 : Fin S256x512x8x96.rank) ∈ dot_S256x512x8x96_S96x32_S256x512x8x32_3_0_012_1_n_n.lhsNonContracting by decide)]
  rfl

theorem dot_lhs_3 (i : S256x512x8x32.Idx) (q : dot_S256x512x8x96_S96x32_S256x512x8x32_3_0_012_1_n_n.contr.Idx) :
    (dot_S256x512x8x96_S96x32_S256x512x8x32_3_0_012_1_n_n.lhsIdx i q 3).val = (q ⟨0, by decide⟩).val := dot_S256x512x8x96_S96x32_S256x512x8x32_3_0_012_1_n_n.lhsIdx_val_of_single rfl i q

/-- The right operand's first axis is the contracted one; its second reads the result's last coordinate. -/
theorem dot_rhs_0 (i : S256x512x8x32.Idx) (q : dot_S256x512x8x96_S96x32_S256x512x8x32_3_0_012_1_n_n.contr.Idx) :
    (dot_S256x512x8x96_S96x32_S256x512x8x32_3_0_012_1_n_n.rhsIdx i q 0).val = (q ⟨0, by decide⟩).val := dot_S256x512x8x96_S96x32_S256x512x8x32_3_0_012_1_n_n.rhsIdx_val_of_single rfl i q

theorem dot_rhs_1 (i : S256x512x8x32.Idx) (q : dot_S256x512x8x96_S96x32_S256x512x8x32_3_0_012_1_n_n.contr.Idx) : (dot_S256x512x8x96_S96x32_S256x512x8x32_3_0_012_1_n_n.rhsIdx i q 1).val = (i 3).val := by
  unfold DotDims.rhsIdx
  rw [dif_neg (show ¬(1 : Fin S96x32.rank) ∈ dot_S256x512x8x96_S96x32_S256x512x8x32_3_0_012_1_n_n.rhsBatch by decide),
    dif_pos (show (1 : Fin S96x32.rank) ∈ dot_S256x512x8x96_S96x32_S256x512x8x32_3_0_012_1_n_n.rhsNonContracting by decide)]
  rfl

/-- The product over the 96 read at an index: a sum over the one contracted axis. -/
theorem dot_at (L : FVec Ideal S256x512x8x96 .f32) (w : FVec Ideal S96x32 .f32)
    (b : Fin 256) (n : Fin 512) (l : Fin 8) (f : Fin 32) :
    Host.dotGeneral dot_S256x512x8x96_S96x32_S256x512x8x32_3_0_012_1_n_n none L w (ix4 b n l f) = ∑ k : Fin 96, L (ix4 b n l k) * w (ix2 k f) := by
  simp only [Host.dotGeneral]
  rw [Ideal.dotGeneral_apply]
  rw [← Equiv.sum_comp (ValueIdx.contrEquiv1 dot_S256x512x8x96_S96x32_S256x512x8x32_3_0_012_1_n_n 96 rfl rfl).symm]
  refine Finset.sum_congr rfl fun k _ => ?_
  have hk := ValueIdx.contrEquiv1_symm_val dot_S256x512x8x96_S96x32_S256x512x8x32_3_0_012_1_n_n 96 rfl rfl k
  have el : dot_S256x512x8x96_S96x32_S256x512x8x32_3_0_012_1_n_n.lhsIdx (ix4 b n l f) ((ValueIdx.contrEquiv1 dot_S256x512x8x96_S96x32_S256x512x8x32_3_0_012_1_n_n 96 rfl rfl).symm k) = ix4 b n l k :=
    funext fun a => Fin.ext (by
      match a with
      | ⟨0, _⟩ => exact dot_lhs_0 _ _
      | ⟨1, _⟩ => exact dot_lhs_1 _ _
      | ⟨2, _⟩ => exact dot_lhs_2 _ _
      | ⟨3, _⟩ => exact (dot_lhs_3 _ _).trans hk)
  have er : dot_S256x512x8x96_S96x32_S256x512x8x32_3_0_012_1_n_n.rhsIdx (ix4 b n l f) ((ValueIdx.contrEquiv1 dot_S256x512x8x96_S96x32_S256x512x8x32_3_0_012_1_n_n 96 rfl rfl).symm k) = ix2 k f :=
    funext fun a => Fin.ext (by
      match a with
      | ⟨0, _⟩ => exact (dot_rhs_0 _ _).trans hk
      | ⟨1, _⟩ => exact dot_rhs_1 _ _)
  rw [el, er]

/-! ## The term -/

/-- The reference's term at board `(b, n)`, column `q`. -/
theorem refTerm_at (x : FVec Ideal S256x512x9x32 .f32) (w : FVec Ideal S96x32 .f32)
    (b : Fin 256) (n : Fin 512) (q : Fin 256) :
    Cert.ReferenceIdeal.RefRun.refTerm (F := Ideal) x w (ix3 b n q) = Cert.Lines.lineFeat x w (ix3 b n q) := by
  unfold Cert.ReferenceIdeal.RefRun.refTerm Cert.Lines.lineFeat
  rw [reshape256_at, dot_at]
  refine Finset.sum_congr rfl fun k _ => ?_
  rw [reshape96_at, gathered_at]

/-- The reference's term is the specification's line features. -/
theorem refTerm_eq (x : FVec Ideal S256x512x9x32 .f32) (w : FVec Ideal S96x32 .f32) :
    Cert.ReferenceIdeal.RefRun.refTerm (F := Ideal) x w = Cert.Lines.lineFeat x w := by
  funext i
  rw [eq_ix3 i]
  exact refTerm_at x w _ _ _

end Cert.ReferenceIdeal.RefValue

end
-- ==== Proof.Payload.lean ====
/-
  The kernel body's stored value, read at an index over the extended reals.

  The body cuts the [1024, 9, 32] block of boards into its nine cells, lays the three cells of each of the eight lines
  side by side (a [1024, 96] array per line), multiplies each by the [96, 32] weights and lays the eight [1024, 32]
  products side by side. Read at row `r` and column `q = 32 l + f`, that is feature `f` of line `l` of board `r`: the
  sum over the 96 positions `k` of coordinate `k % 32` of the line's cell number `k / 32`, times the weight at `(k, f)`.
  The narrowing of the operands is the identity on extended reals, and the products accumulate into zero.

  The steps: one cell's slice at an index (`piece_apply`), a line's three cells side by side (`cat3_apply`), the block
  product at an index (`mm_apply`, over the dimension numbers' operand indices `lhs_0` … `rhs_1`), a line's features
  (`line_apply`), the eight lines side by side (`cat8_apply`), and the case split on the line (`pay_apply`).
-/
import proofs.«101083_j11570641895534_1_alg».proof.Proof.Gen.KernelIdeal.Skeleton
import proofs.«101083_j11570641895534_1_alg».proof.Proof.Spec
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The narrowed block is the block: a shape cast to the same shape and a narrowing, both the identity. -/
theorem pay2_apply (x0 : Vec Ideal S1024x9x32 .f32) (i : S1024x9x32.Idx) : k0_pay2 (F := Ideal) x0 i = x0 i := by
  unfold k0_pay2
  exact congrFun (shapeCast_self x0 _) i

/-- The narrowed weights are the weights. -/
theorem pay3_apply (x1 : Vec Ideal S96x32 .f32) (i : S96x32.Idx) : k0_pay3 (F := Ideal) x1 i = x1 i := rfl

/-- One cell's embeddings as a [1024, 32] array: the slice of the block at cell `c`, its unit axis dropped. -/
theorem piece_apply (c : Nat) (hc : c < 9) (v : FVec Ideal S1024x9x32 .bf16) (h : S1024x9x32.Slices ![0, c, 0] S1024x1x32)
    (h' : S1024x1x32.ShapeCasts S1024x32) (r : Fin 1024) (e : Fin 32) :
    shapeCast S1024x32 (extractStridedSlice S1024x1x32 ![0, c, 0] v h) h' (ix2 r e) = v (ix3 r ⟨c, hc⟩ e) := by
  rw [shapeCast_apply _ h' (ix2 r e) (ix3 r (0 : Fin 1) e) (by
    rw [Shape.rowMajor_val_two, Shape.rowMajor_val_three]
    show (r.val * 1 + 0) * 32 + e.val = r.val * 32 + e.val
    omega)]
  refine extractStridedSlice_apply _ v h _ _ fun a => ?_
  match a with
  | ⟨0, _⟩ => show r.val = 0 + r.val; omega
  | ⟨1, _⟩ => show c = c + 0; omega
  | ⟨2, _⟩ => show e.val = 0 + e.val; omega

/-- The left operand's row is the output's row. -/
theorem lhs_0 (i : S1024x32.Idx) (q : dot_S1024x96_S96x32_S1024x32_1_0_0_1_n_n.contr.Idx) :
    (dot_S1024x96_S96x32_S1024x32_1_0_0_1_n_n.lhsIdx i q 0).val = (i 0).val := by
  unfold DotDims.lhsIdx
  rw [dif_neg (show ¬(0 : Fin S1024x96.rank) ∈ dot_S1024x96_S96x32_S1024x32_1_0_0_1_n_n.lhsBatch by decide),
    dif_pos (show (0 : Fin S1024x96.rank) ∈ dot_S1024x96_S96x32_S1024x32_1_0_0_1_n_n.lhsNonContracting by decide)]
  rfl

/-- The left operand's column is the contracted position. -/
theorem lhs_1 (i : S1024x32.Idx) (q : dot_S1024x96_S96x32_S1024x32_1_0_0_1_n_n.contr.Idx) :
    (dot_S1024x96_S96x32_S1024x32_1_0_0_1_n_n.lhsIdx i q 1).val = (q ⟨0, by decide⟩).val :=
  dot_S1024x96_S96x32_S1024x32_1_0_0_1_n_n.lhsIdx_val_of_single rfl i q

/-- The right operand's row is the contracted position. -/
theorem rhs_0 (i : S1024x32.Idx) (q : dot_S1024x96_S96x32_S1024x32_1_0_0_1_n_n.contr.Idx) :
    (dot_S1024x96_S96x32_S1024x32_1_0_0_1_n_n.rhsIdx i q 0).val = (q ⟨0, by decide⟩).val :=
  dot_S1024x96_S96x32_S1024x32_1_0_0_1_n_n.rhsIdx_val_of_single rfl i q

/-- The right operand's column is the output's column. -/
theorem rhs_1 (i : S1024x32.Idx) (q : dot_S1024x96_S96x32_S1024x32_1_0_0_1_n_n.contr.Idx) :
    (dot_S1024x96_S96x32_S1024x32_1_0_0_1_n_n.rhsIdx i q 1).val = (i 1).val := by
  unfold DotDims.rhsIdx
  rw [dif_neg (show ¬(1 : Fin S96x32.rank) ∈ dot_S1024x96_S96x32_S1024x32_1_0_0_1_n_n.rhsBatch by decide),
    dif_pos (show (1 : Fin S96x32.rank) ∈ dot_S1024x96_S96x32_S1024x32_1_0_0_1_n_n.rhsNonContracting by decide)]
  rfl

/-- The block product into the zero accumulator at row `r`, column `f`: the sum over the 96 contracted positions. -/
theorem mm_apply (A : FVec Ideal S1024x96 .bf16) (W : FVec Ideal S96x32 .bf16) (r : Fin 1024) (f : Fin 32) :
    matmul dot_S1024x96_S96x32_S1024x32_1_0_0_1_n_n none A W (constant S1024x32 .f32 0x00000000#32) (ix2 r f)
      = ∑ k : Fin 96, A (ix2 r k) * W (ix2 k f) := by
  simp only [matmul]
  rw [Ideal.matmul_constant_zero_apply]
  rw [← Equiv.sum_comp (ValueIdx.contrEquiv1 dot_S1024x96_S96x32_S1024x32_1_0_0_1_n_n 96 rfl rfl).symm]
  refine Finset.sum_congr rfl fun k _ => ?_
  have hk := ValueIdx.contrEquiv1_symm_val dot_S1024x96_S96x32_S1024x32_1_0_0_1_n_n 96 rfl rfl k
  have el : dot_S1024x96_S96x32_S1024x32_1_0_0_1_n_n.lhsIdx (ix2 r f) ((ValueIdx.contrEquiv1 dot_S1024x96_S96x32_S1024x32_1_0_0_1_n_n 96 rfl rfl).symm k) = ix2 r k :=
    funext fun a => Fin.ext (by
      match a with
      | ⟨0, _⟩ => exact lhs_0 _ _
      | ⟨1, _⟩ => exact (lhs_1 _ _).trans hk)
  have er : dot_S1024x96_S96x32_S1024x32_1_0_0_1_n_n.rhsIdx (ix2 r f) ((ValueIdx.contrEquiv1 dot_S1024x96_S96x32_S1024x32_1_0_0_1_n_n 96 rfl rfl).symm k) = ix2 k f :=
    funext fun a => Fin.ext (by
      match a with
      | ⟨0, _⟩ => exact (rhs_0 _ _).trans hk
      | ⟨1, _⟩ => exact rhs_1 _ _)
  rw [el, er]

/-- Three [1024, 32] arrays side by side: column `k` of the [1024, 96] array is column `k % 32` of piece `k / 32`. -/
theorem cat3_apply (p0 p1 p2 : FVec Ideal S1024x32 .bf16)
    (h : Shape.Concatenates [S1024x32, S1024x32, S1024x32] S1024x96 1) (r : Fin 1024) (k : Fin 96) :
    concatenate S1024x96 1 [⟨S1024x32, p0⟩, ⟨S1024x32, p1⟩, ⟨S1024x32, p2⟩] h (ix2 r k)
      = (![p0, p1, p2] : Fin 3 → FVec Ideal S1024x32 .bf16) (Cert.Lines.posOf k) (ix2 r (Cert.Lines.embOf k)) :=
  concatenate_ofFn_apply (t := S1024x96) (s₁ := S1024x32) 1 ![p0, p1, p2] h rfl 32 rfl (ix2 r k) (Cert.Lines.posOf k) rfl
    (ix2 r (Cert.Lines.embOf k)) rfl (fun b hb => by
      match b with
      | ⟨0, _⟩ => rfl
      | ⟨1, _⟩ => exact absurd rfl hb)

/-- Eight [1024, 32] arrays side by side: column `q` of the [1024, 256] array is column `q % 32` of piece `q / 32`. -/
theorem cat8_apply (p0 p1 p2 p3 p4 p5 p6 p7 : FVec Ideal S1024x32 .f32)
    (h : Shape.Concatenates [S1024x32, S1024x32, S1024x32, S1024x32, S1024x32, S1024x32, S1024x32, S1024x32] S1024x256 1)
    (r : Fin 1024) (q : Fin 256) :
    concatenate S1024x256 1 [⟨S1024x32, p0⟩, ⟨S1024x32, p1⟩, ⟨S1024x32, p2⟩, ⟨S1024x32, p3⟩, ⟨S1024x32, p4⟩, ⟨S1024x32, p5⟩,
        ⟨S1024x32, p6⟩, ⟨S1024x32, p7⟩] h (ix2 r q)
      = (![p0, p1, p2, p3, p4, p5, p6, p7] : Fin 8 → FVec Ideal S1024x32 .f32) (Cert.Lines.lineOf q)
          (ix2 r (Cert.Lines.featOf q)) :=
  concatenate_ofFn_apply (t := S1024x256) (s₁ := S1024x32) 1 ![p0, p1, p2, p3, p4, p5, p6, p7] h rfl 32 rfl (ix2 r q)
    (Cert.Lines.lineOf q) rfl (ix2 r (Cert.Lines.featOf q)) rfl (fun b hb => by
      match b with
      | ⟨0, _⟩ => rfl
      | ⟨1, _⟩ => exact absurd rfl hb)

/-- A line's 32 features at a board. The block `v` and the weights `W` are the inputs read through a narrowing, which
    is the identity on extended reals (`hv`, `hW`); the line's three cells are `c0`, `c1`, `c2`. The product of the
    three cells' embeddings laid side by side with the weights is the sum over the 96 positions `k`, position `k`
    holding coordinate `k % 32` of the line's cell number `k / 32`. -/
theorem line_apply (l : Fin 8) (c0 c1 c2 : Nat) (e0 : (Cert.Lines.cell l 0).val = c0) (e1 : (Cert.Lines.cell l 1).val = c1)
    (e2 : (Cert.Lines.cell l 2).val = c2) (x0 : Vec Ideal S1024x9x32 .f32) (x1 : Vec Ideal S96x32 .f32)
    (v : FVec Ideal S1024x9x32 .bf16) (W : FVec Ideal S96x32 .bf16) (hv : ∀ i, v i = x0 i) (hW : ∀ i, W i = x1 i)
    (h0 : S1024x9x32.Slices ![0, c0, 0] S1024x1x32) (h1 : S1024x9x32.Slices ![0, c1, 0] S1024x1x32)
    (h2 : S1024x9x32.Slices ![0, c2, 0] S1024x1x32) (hs : S1024x1x32.ShapeCasts S1024x32)
    (hc : Shape.Concatenates [S1024x32, S1024x32, S1024x32] S1024x96 1) (r : Fin 1024) (f : Fin 32) :
    matmul dot_S1024x96_S96x32_S1024x32_1_0_0_1_n_n none
        (concatenate S1024x96 1
          [⟨S1024x32, shapeCast S1024x32 (extractStridedSlice S1024x1x32 ![0, c0, 0] v h0) hs⟩,
           ⟨S1024x32, shapeCast S1024x32 (extractStridedSlice S1024x1x32 ![0, c1, 0] v h1) hs⟩,
           ⟨S1024x32, shapeCast S1024x32 (extractStridedSlice S1024x1x32 ![0, c2, 0] v h2) hs⟩] hc)
        W (constant S1024x32 .f32 0x00000000#32) (ix2 r f)
      = ∑ k : Fin 96, x0 (ix3 r (Cert.Lines.cell l (Cert.Lines.posOf k)) (Cert.Lines.embOf k)) * x1 (ix2 k f) := by
  subst e0 e1 e2
  rw [mm_apply]
  refine Finset.sum_congr rfl fun k _ => ?_
  rw [cat3_apply, hW]
  refine congrArg (· * _) ?_
  generalize Cert.Lines.posOf k = j
  match j with
  | ⟨0, _⟩ => exact (piece_apply _ (Cert.Lines.cell l 0).isLt v h0 hs r _).trans (hv _)
  | ⟨1, _⟩ => exact (piece_apply _ (Cert.Lines.cell l 1).isLt v h1 hs r _).trans (hv _)
  | ⟨2, _⟩ => exact (piece_apply _ (Cert.Lines.cell l 2).isLt v h2 hs r _).trans (hv _)

/-- Row `r`, column `q` of the block the body stores: the features of board `r` of the input block. -/
theorem pay_apply (x0 : Vec Ideal S1024x9x32 .f32) (x1 : Vec Ideal S96x32 .f32) (r : Fin 1024) (q : Fin 256) :
    k0_pay1 (F := Ideal) (k0_pay2 x0) (k0_pay3 x1) (k0_pay4 x0 x1) (k0_pay5 x0 x1) (k0_pay6 x0 x1) (k0_pay7 x0 x1)
        (k0_pay8 x0 x1) (k0_pay9 x0) (k0_pay10 x0) (ix2 r q)
      = ∑ k : Fin 96, x0 (ix3 r (Cert.Lines.cell (Cert.Lines.lineOf q) (Cert.Lines.posOf k)) (Cert.Lines.embOf k))
          * x1 (ix2 k (Cert.Lines.featOf q)) := by
  unfold k0_pay1
  refine (cat8_apply _ _ _ _ _ _ _ _ _ r q).trans ?_
  generalize Cert.Lines.lineOf q = l
  match l with
  | ⟨0, _⟩ =>
    unfold k0_pay4
    exact line_apply 0 0 1 2 rfl rfl rfl x0 x1 _ _ (pay2_apply x0) (pay3_apply x1) _ _ _ _ _ r _
  | ⟨1, _⟩ =>
    unfold k0_pay5
    exact line_apply 1 3 4 5 rfl rfl rfl x0 x1 _ _ (pay2_apply x0) (pay3_apply x1) _ _ _ _ _ r _
  | ⟨2, _⟩ =>
    unfold k0_pay6
    exact line_apply 2 6 7 8 rfl rfl rfl x0 x1 _ _ (pay2_apply x0) (pay3_apply x1) _ _ _ _ _ r _
  | ⟨3, _⟩ =>
    unfold k0_pay7
    exact line_apply 3 0 3 6 rfl rfl rfl x0 x1 _ _ (pay2_apply x0) (pay3_apply x1) _ _ _ _ _ r _
  | ⟨4, _⟩ =>
    unfold k0_pay8
    exact line_apply 4 1 4 7 rfl rfl rfl x0 x1 _ _ (pay2_apply x0) (pay3_apply x1) _ _ _ _ _ r _
  | ⟨5, _⟩ =>
    unfold k0_pay9 k0_pay10
    exact line_apply 5 2 5 8 rfl rfl rfl x0 x1 _ _ (pay2_apply x0) (pay3_apply x1) _ _ _ _ _ r _
  | ⟨6, _⟩ =>
    exact line_apply 6 0 4 8 rfl rfl rfl x0 x1 _ _ (pay2_apply x0) (pay3_apply x1) _ _ _ _ _ r _
  | ⟨7, _⟩ =>
    exact line_apply 7 2 4 6 rfl rfl rfl x0 x1 _ _ (pay2_apply x0) (pay3_apply x1) _ _ _ _ _ r _

end Cert.KernelIdeal.Payload

end
-- ==== Proof.KernelValue.lean ====
/-
  What the kernel's program leaves in its result buffer, over the extended reals.

  The program reshapes the batch of boards [256, 512, 9, 32] to a flat list of 131072 boards, runs the kernel over
  128 grid points — point t loads boards 1024 t … 1024 t + 1023 and the whole weight matrix, and stores the
  [1024, 256] block of their line features —, and reshapes the [131072, 256] array back to [256, 512, 256].
  Each stored block is the restriction of ONE function of the flat input, `Lines.flatFeat`; the 128 row blocks tile
  the array, so the array after the region is that function; board 512 b + n of the flat list is board (b, n), so
  the reshaped result is `Lines.lineFeat` of the two arguments.
-/
import proofs.«101083_j11570641895534_1_alg».proof.Proof.Gen.KernelIdeal.Frame
import proofs.«101083_j11570641895534_1_alg».proof.Proof.Spec
import Idealize.ShloMosaic.Lib.Pipeline.Value
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body's arithmetic at one index (proved in the payload module; taken here as a hypothesis). -/
def PayLaw : Prop := ∀ (x0 : Vec Ideal S1024x9x32 .f32) (x1 : Vec Ideal S96x32 .f32) (r : Fin 1024) (q : Fin 256),
    k0_pay1 (F := Ideal) (k0_pay2 x0) (k0_pay3 x1) (k0_pay4 x0 x1) (k0_pay5 x0 x1) (k0_pay6 x0 x1) (k0_pay7 x0 x1)
        (k0_pay8 x0 x1) (k0_pay9 x0) (k0_pay10 x0) (ix2 r q)
      = ∑ k : Fin 96, x0 (ix3 r (Cert.Lines.cell (Cert.Lines.lineOf q) (Cert.Lines.posOf k)) (Cert.Lines.embOf k))
          * x1 (ix2 k (Cert.Lines.featOf q))

/-- The loads and the store start at the origin of their buffers. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the boards' and the result's block index is the point on the leading
    axis and zero elsewhere; the weights' block is the whole matrix. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the input block at point t is row 1024 t + r of the flat input. -/
theorem xblk_apply (c : Dev nD) (t : Fin cfg0.N) (r : Fin 1024) (cc : Fin 9) (ee : Fin 32) (R : Fin 131072)
    (hR : R.val = t.val * 1024 + r.val) :
    iblk m c 0 t (ix3 r cc ee) = V m c main_v0 (ix3 R cc ee) := by
  obtain ⟨e0, e1, e2, e3, e4, e5, e6⟩ := idx_facts t
  show V m c main_v0 (((cfg0.win 0).blk t).view.emb (ix3 r cc ee)) = V m c main_v0 (ix3 R cc ee)
  refine congrArg _ (funext fun a => Fin.ext ?_)
  match a with
  | ⟨0, _⟩ => show win0_0.index t (0 : Fin 3) * 1024 + 1 * r.val = R.val; omega
  | ⟨1, _⟩ => show win0_0.index t (1 : Fin 3) * 9 + 1 * cc.val = cc.val; omega
  | ⟨2, _⟩ => show win0_0.index t (2 : Fin 3) * 32 + 1 * ee.val = ee.val; omega

/-- The weights' block at any point is the weight matrix. -/
theorem wblk_apply (c : Dev nD) (t : Fin cfg0.N) (k : Fin 96) (f : Fin 32) :
    iblk m c 1 t (ix2 k f) = V m c main_arg1 (ix2 k f) := by
  obtain ⟨e0, e1, e2, e3, e4, e5, e6⟩ := idx_facts t
  show V m c main_arg1 (((cfg0.win 1).blk t).view.emb (ix2 k f)) = V m c main_arg1 (ix2 k f)
  refine congrArg _ (funext fun a => Fin.ext ?_)
  match a with
  | ⟨0, _⟩ => show win0_1.index t (0 : Fin 2) * 96 + 1 * k.val = k.val; omega
  | ⟨1, _⟩ => show win0_1.index t (1 : Fin 2) * 32 + 1 * f.val = f.val; omega

/-- One stored block against the flat features: if the loaded blocks are block T of X (rows T*1024 ..) and W whole,
    the body's value at (r, q) is the flat features at (T*1024 + r, q). -/
theorem pay_block (hpay : PayLaw) (x0 : Vec Ideal S1024x9x32 .f32) (x1 : Vec Ideal S96x32 .f32)
    (X : S131072x9x32.Idx → EReal) (W : S96x32.Idx → EReal) (T : Nat)
    (h0 : ∀ (r : Fin 1024) (cc : Fin 9) (ee : Fin 32) (R : Fin 131072), R.val = T * 1024 + r.val → x0 (ix3 r cc ee) = X (ix3 R cc ee))
    (h1 : ∀ (k : Fin 96) (f : Fin 32), x1 (ix2 k f) = W (ix2 k f))
    (j : S1024x256.Idx) (i : S131072x256.Idx) (hi0 : (i 0).val = T * 1024 + (j 0).val) (hi1 : (i 1).val = (j 1).val) :
    k0_pay1 (F := Ideal) (k0_pay2 x0) (k0_pay3 x1) (k0_pay4 x0 x1) (k0_pay5 x0 x1) (k0_pay6 x0 x1) (k0_pay7 x0 x1)
        (k0_pay8 x0 x1) (k0_pay9 x0) (k0_pay10 x0) j = Cert.Lines.flatFeat X W i := by
  obtain ⟨r, q, rfl⟩ : ∃ (r : Fin 1024) (q : Fin 256), j = ix2 r q := ⟨j 0, j 1, eq_ix2 j⟩
  obtain ⟨R, q', rfl⟩ : ∃ (R : Fin 131072) (q' : Fin 256), i = ix2 R q' := ⟨i 0, i 1, eq_ix2 i⟩
  have hq : q' = q := Fin.ext hi1
  subst hq
  refine (hpay x0 x1 r _).trans ?_
  unfold Cert.Lines.flatFeat
  refine Finset.sum_congr rfl fun k _ => ?_
  show x0 (ix3 r _ _) * x1 (ix2 k _) = X (ix3 R _ _) * W (ix2 k _)
  rw [h0 r _ _ R hi0, h1]

/-- What point t writes back is block t of the flat features of the arrays the region finds. -/
theorem flushed_eq (hpay : PayLaw) (c : Dev nD) (t : Fin cfg0.N) :
    (dats m 0 c).flushed 2 t = ((cfg0.win 2).blk t).view.read (Elt Ideal) (Cert.Lines.flatFeat (V m c main_v0) (V m c main_arg1)) := by
  show (cfg0.win 2).cut (grid0.coords t) ((dats m 0 c).after 2 t) = _
  rw [after0_2]
  unfold out0_2
  rw [View.canon_unit_zero hz2]
  simp only [View.ld_unit_zero (S := S1024x9x32) hz3, View.ld_unit_zero (S := S96x32) hz2]
  obtain ⟨e0, e1, e2, e3, e4, e5, e6⟩ := idx_facts t
  funext j
  refine pay_block hpay (iblk m c 0 t) (iblk m c 1 t) (V m c main_v0) (V m c main_arg1) t.val
    (fun r cc ee R hR => xblk_apply m c t r cc ee R hR) (fun k f => wblk_apply m c t k f) j (((cfg0.win 2).blk t).view.emb j) ?_ ?_
  · show win0_2.index t (0 : Fin 2) * 1024 + 1 * (j 0).val = t.val * 1024 + (j 0).val; omega
  · show win0_2.index t (1 : Fin 2) * 256 + 1 * (j 1).val = (j 1).val; omega

/-- An index is in point t's block iff each coordinate is in the block's range on its axis. -/
theorem mem_blk (t : Fin cfg0.N) (i : S131072x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v1).slice (win0_2.rect t)).set ↔ _
  rw [View.set_slice_whole, Rect.mem_set_unit]
  exact Iff.rfl

/-- Every block row is some point's. -/
theorem idx_onto : ∀ q0 : Fin 128, ∃ t : Fin cfg0.N, t.val = q0.val :=
  (by decide +kernel : ∀ q0 : Fin 128, ∃ t : Fin grid0.N, t.val = q0.val)

/-- Row i₀ lies in the block of point i₀ / 1024: the blocks cover the array. -/
theorem cover (i : S131072x256.Idx) :
    ∃ t : Fin cfg0.N, (cfg0.win 2).flush t = true ∧ i ∈ ((cfg0.win 2).blk t).view.set := by
  have hi0 : (i 0).val < 131072 := (i 0).isLt
  have hi1 : (i 1).val < 256 := (i 1).isLt
  obtain ⟨t, ht⟩ := idx_onto ⟨(i 0).val / 1024, by omega⟩
  have ht' : t.val = (i 0).val / 1024 := ht
  obtain ⟨e0, e1, e2, e3, e4, e5, e6⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- The array after the region. -/
theorem final (hpay : PayLaw) (c : Dev nD) :
    (dats m 0 c).arrAt 2 cfg0.N = Cert.Lines.flatFeat (V m c main_v0) (V m c main_arg1) :=
  (dats m 0 c).arrAt_eq_of_cover 2 _ (fun t _ => flushed_eq m hpay c t) cover

/-- The host reshape before the region. -/
theorem V_main_v0 (c : Dev nD) :
    (V m c main_v0 : S131072x9x32.Idx → EReal) = shapeCast S131072x9x32 (m ((c : Thread nD τ).loc main_arg0)) shapeCasts_S256x512x9x32_S131072x9x32 := by
  show StableHlo.after hostOps0 (fun b => m (c, b)) (Proc.devRef .tc main_v0) = _
  after_results
  rfl

/-- The host reshape after the region. -/
theorem tail_main_v2 (c : Dev nD) :
    (Pipeline.afterTail₀ cfgs (dats m) 0 (V0 m) [hostOps1] c main_v2 : S256x512x256.Idx → EReal)
      = shapeCast S256x512x256 ((dats m 0 c).arrAt 2 cfg0.N) shapeCasts_S131072x256_S256x512x256 := by
  unfold Pipeline.afterTail₀
  show StableHlo.after hostOps1 _ (Proc.devRef .tc main_v2) = _
  after_results
  have hw : Pipeline.withArrays spec0 c (V0 m c) (fun w => (dats m 0 c).arrAt w cfg0.N) (Proc.devRef .tc main_v1)
      = (dats m 0 c).arrAt 2 cfg0.N := Pipeline.withArrays_arr spec0 launch0.win.arr_inj c _ _ 2
  funext i
  show shapeCast S256x512x256 (Pipeline.withArrays spec0 c (V0 m c) (fun w => (dats m 0 c).arrAt w cfg0.N) (Proc.devRef .tc main_v1)) shapeCasts_S131072x256_S256x512x256 i = _
  rw [hw]

/-- Row `512 b + n` of the reshaped input is board `(b, n)` of the argument. -/
theorem xflat_apply (c : Dev nD) (b : Fin 256) (n : Fin 512) (r : Fin 131072) (cc : Fin 9) (ee : Fin 32)
    (hr : r.val = 512 * b.val + n.val) :
    (V m c main_v0 : S131072x9x32.Idx → EReal) (ix3 r cc ee) = m ((c : Thread nD τ).loc main_arg0) (ix4 b n cc ee) := by
  refine (congrFun (V_main_v0 m c) (ix3 r cc ee)).trans ?_
  refine shapeCast_apply _ _ _ _ ?_
  show (S256x512x9x32.rowMajor (ix4 b n cc ee)).val = (S131072x9x32.rowMajor (ix3 r cc ee)).val
  rw [Shape.rowMajor_val_four, Shape.rowMajor_val_three]
  show ((b.val * 512 + n.val) * 9 + cc.val) * 32 + ee.val = (r.val * 9 + cc.val) * 32 + ee.val
  omega

/-- The program's result: the tail's reshape of the region's array is the line features of the arguments. -/
theorem result_eq (hpay : PayLaw) (c : Dev nD) :
    (Pipeline.afterTail₀ cfgs (dats m) 0 (V0 m) [hostOps1] c main_v2 : S256x512x256.Idx → EReal)
      = Cert.Lines.lineFeat (m ((c : Thread nD τ).loc main_arg0)) (m ((c : Thread nD τ).loc main_arg1)) := by
  rw [tail_main_v2, final m hpay c, V_main_arg1 m c]
  funext i
  obtain ⟨b, n, q, rfl⟩ : ∃ (b : Fin 256) (n : Fin 512) (q : Fin 256), i = ix3 b n q := ⟨i 0, i 1, i 2, eq_ix3 i⟩
  have hr : 512 * b.val + n.val < 131072 := by have := b.isLt; have := n.isLt; omega
  refine (shapeCast_apply _ _ (ix3 b n q) (ix2 ⟨512 * b.val + n.val, hr⟩ q) ?_).trans ?_
  · rw [Shape.rowMajor_val_two, Shape.rowMajor_val_three]
    show (512 * b.val + n.val) * 256 + q.val = (b.val * 512 + n.val) * 256 + q.val
    omega
  · exact Cert.Lines.lineFeat_flat _ _ _ (fun b' n' r cc ee hr' => xflat_apply m c b' n' r cc ee hr') b n ⟨_, hr⟩ rfl q

/-- The frame run re-posted: the result at the line features of the arguments, the arguments unchanged. -/
theorem run (hpay : PayLaw) : θ_run defs (onTc (τ := τ) (main (F := Ideal))) ⟨m, fun _ => 0, ρ⟩ fun r => ∀ c : Dev nD,
      r.2.mem ((c.tc : Thread nD τ).loc main_v2) = Cert.Lines.lineFeat (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (result_eq m hpay c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.KValue

end
-- ==== Proof.lean ====
/-
  The certificate of the board-lines kernel against its jnp reference, over the extended reals.

  Both programs take a batch of 3 x 3 boards, each cell an embedding of 32 numbers ([256, 512, 9, 32]), and a weight
  matrix [96, 32], and return for every board the features of its eight lines (three rows, three columns, two
  diagonals), 32 per line, side by side ([256, 512, 256]):

      out[b, n, 32 l + f] = sum over k < 96 of  x[b, n, cell l (k / 32), k % 32] * w[k, f]        (Proof/Spec.lean).

  The reference gathers each line's three cells with a constant index table, lays their embeddings side by side by a
  reshape and contracts the 96 against the weights in one product (Proof/RefTerm.lean its term, Proof/RefRun.lean its
  run, Proof/RefValue.lean the term at an index). The kernel reshapes the batch to a flat list of boards and, 1024
  boards to a grid point, slices the cells of each line out of the loaded block, concatenates them, multiplies by the
  weights into a zero accumulator, and stores the eight products side by side; a last reshape restores the batch axes
  (Proof/Payload.lean the body's value at an index, Proof/KernelValue.lean the array after the run). At the ideal
  instance a change of float format is the identity and a product into zero is the plain sum, so the two are the same
  sums term by term: no algebraic law beyond that is used, and the inputs' finiteness is never opened.
  The two kernels' frames are the generated ones; the reference's frame is its run with the result dropped; the ideal
  pass rewrote nothing, so there is nothing to preserve.
-/
import proofs.«101083_j11570641895534_1_alg».proof.Defs
import proofs.«101083_j11570641895534_1_alg».proof.Proof.Gen.Kernel
import proofs.«101083_j11570641895534_1_alg».proof.Proof.Gen.Kernel.Skeleton
import proofs.«101083_j11570641895534_1_alg».proof.Proof.Gen.Kernel.Launch
import proofs.«101083_j11570641895534_1_alg».proof.Proof.Gen.Kernel.Points
import proofs.«101083_j11570641895534_1_alg».proof.Proof.Gen.Kernel.Frame
import proofs.«101083_j11570641895534_1_alg».proof.Proof.Gen.KernelIdeal
import proofs.«101083_j11570641895534_1_alg».proof.Proof.Gen.KernelIdeal.Skeleton
import proofs.«101083_j11570641895534_1_alg».proof.Proof.Gen.KernelIdeal.Launch
import proofs.«101083_j11570641895534_1_alg».proof.Proof.Gen.KernelIdeal.Points
import proofs.«101083_j11570641895534_1_alg».proof.Proof.Gen.KernelIdeal.Frame
import proofs.«101083_j11570641895534_1_alg».proof.Proof.Gen.ReferenceIdeal
import proofs.«101083_j11570641895534_1_alg».proof.Proof.Gen.Pre_finite_inputs
import proofs.«101083_j11570641895534_1_alg».proof.Proof.Spec
import proofs.«101083_j11570641895534_1_alg».proof.Proof.RefTerm
import proofs.«101083_j11570641895534_1_alg».proof.Proof.RefRun
import proofs.«101083_j11570641895534_1_alg».proof.Proof.RefValue
import proofs.«101083_j11570641895534_1_alg».proof.Proof.Payload
import proofs.«101083_j11570641895534_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the line features of those arguments: the
    kernel's by the array after its run, the reference's by its term read at an index. -/
theorem algebraic : Cert.algebraic_KernelIdeal_ReferenceIdeal := by
  intro m ρ m' ρ' _ hagree
  refine ⟨_, Cert.KernelIdeal.KValue.run m ρ Cert.KernelIdeal.Payload.pay_apply, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refTerm_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
